-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512 : Shape := ⟨1, ![512]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel

variable [Facts]

def fn {F : FTy → Type} [FloatOps F] (main_arg0 : FVec F S32x4096x512 .f32) (main_arg1 : IVec S512 32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  main_v3
-- ==== Kernel.lean ====
abbrev S32x4096x512 : Shape := ⟨3, ![32, 4096, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S131072x512 : Shape := ⟨2, ![131072, 512]⟩
abbrev S2048x512 : Shape := ⟨2, ![2048, 512]⟩

abbrev nBuf : Space → Nat
  | .hbm => 15
  | .vmem => 5
  | .smem => 0
  | _ => 0

abbrev bufTy : (tb : Table) → Fin (tcTables nBuf tb) → BufTy
  | .hbm, ⟨0, _⟩ => ⟨S32x4096x512, .f32⟩
  | .hbm, ⟨1, _⟩ => ⟨S512, .i32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S512, .i32⟩
  | .hbm, ⟨6, _⟩ => ⟨S512x1, .i32⟩
  | .hbm, ⟨7, _⟩ => ⟨S1x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .f32⟩
  | .hbm, ⟨12, _⟩ => ⟨S131072x512, .f32⟩
  | .hbm, ⟨13, _⟩ => ⟨S131072x512, .f32⟩
  | .hbm, ⟨14, _⟩ => ⟨S32x4096x512, .f32⟩
  | .local _ .vmem, ⟨0, _⟩ => ⟨S512x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  shapeCasts_S32x4096x512_S131072x512 : S32x4096x512.ShapeCasts S131072x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S131072x512_S32x4096x512 : S131072x512.ShapeCasts S32x4096x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S131072x512.size a
  hwx0_2 : ∀ i : grid0.Coords, EltTy.bits .f32 = 32 ∨ (Rect.block (s := S131072x512) S2048x512.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v7) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x4096x512 : Shape := ⟨3, ![32, 4096, 512]⟩
abbrev S512 : Shape := ⟨1, ![512]⟩
abbrev S_ : Shape := ⟨0, ![]⟩
abbrev S512x1 : Shape := ⟨2, ![512, 1]⟩
abbrev S1 : Shape := ⟨1, ![1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512, .i32⟩
  | .hbm, ⟨2, _⟩ => ⟨S512, .i32⟩
  | .hbm, ⟨3, _⟩ => ⟨S512, .i32⟩
  | .hbm, ⟨4, _⟩ => ⟨S512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S1, .i32⟩
  | .hbm, ⟨14, _⟩ => ⟨S_, .i32⟩
  | .hbm, ⟨15, _⟩ => ⟨S512x1, .i32⟩
  | .hbm, ⟨16, _⟩ => ⟨S512x1, .i1⟩
  | .hbm, ⟨17, _⟩ => ⟨S1x1, .i32⟩
  | .hbm, ⟨18, _⟩ => ⟨S512x1, .i32⟩
  | .hbm, ⟨19, _⟩ => ⟨S512x1, .i1⟩
  | .hbm, ⟨20, _⟩ => ⟨S512x1, .i1⟩
  | .hbm, ⟨21, _⟩ => ⟨S_, .i1⟩
  | .hbm, ⟨22, _⟩ => ⟨S512, .i1⟩
  | .hbm, ⟨23, _⟩ => ⟨S32x4096x512, .f32⟩
  | .hbm, ⟨24, _⟩ => ⟨S32x4096x512, .i1⟩
  | .hbm, ⟨25, _⟩ => ⟨S_, .f32⟩
  | .hbm, ⟨26, _⟩ => ⟨S32x4096x512, .f32⟩
  | .hbm, ⟨27, _⟩ => ⟨S32x4096x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_call1_c : Ref sig .tc := ⟨.hbm, 5, rfl⟩
abbrev main_call1_v0 : Ref sig .tc := ⟨.hbm, 6, rfl⟩
abbrev main_call1_v1 : Ref sig .tc := ⟨.hbm, 7, rfl⟩
abbrev main_call1_c_0 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_c_1 : Ref sig .tc := ⟨.hbm, 13, rfl⟩
abbrev main_call1_c_2 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_3 : Ref sig .tc := ⟨.hbm, 21, rfl⟩
abbrev main_call1_v12 : Ref sig .tc := ⟨.hbm, 22, rfl⟩
abbrev main_call1_v13 : Ref sig .tc := ⟨.hbm, 23, rfl⟩
abbrev main_call1_v14 : Ref sig .tc := ⟨.hbm, 24, rfl⟩
abbrev main_call1_cst : Ref sig .tc := ⟨.hbm, 25, rfl⟩
abbrev main_call1_v15 : Ref sig .tc := ⟨.hbm, 26, rfl⟩
abbrev main_v1 : Ref sig .tc := ⟨.hbm, 27, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S32x4096x512_2 : S512.BroadcastsInDim S32x4096x512 (![2] : Fin 1 → Fin S32x4096x512.rank)
  bcast_S_S32x4096x512 : S_.BroadcastsInDim S32x4096x512 (![] : Fin 0 → Fin S32x4096x512.rank)
  gather_S32x4096x512_S512x1_S32x4096x512_01_2_n_n_2_1_3240961_wf : GatherDims.WF S32x4096x512 S512x1 S32x4096x512 [0, 1] [2] [] [2] [] 1 ![32, 4096, 1]

variable [Facts₀]

def comparator_i32_i32_d0 : BitVec 32 × BitVec 32 → BitVec 32 × BitVec 32 → BitVec 1 :=
  fun l r =>
    let v2 := IntOp.cmpi .slt l.1 r.1
    v2
def gather_S32x4096x512_S512x1_S32x4096x512_01_2_n_n_2_1_3240961 : GatherDims S32x4096x512 S512x1 S32x4096x512 where
  offsetDims := [0, 1]
  collapsedSliceDims := [2]
  operandBatchingDims := []
  startIndicesBatchingDims := []
  startIndexMap := [2]
  indexVectorDim := 1
  sliceSizes := ![32, 4096, 1]
  wf := gather_S32x4096x512_S512x1_S32x4096x512_01_2_n_n_2_1_3240961_wf

class Facts : Prop extends Facts₀ where

variable [Facts]
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.Channels.lean ====
/-
  The mathematics of a channel permutation, free of either program.

  A stable argsort of 512 keys carries the positions `0 … 511` through the sort, so every entry of its result is the word
  of a number below 512: a table of channel numbers. For such a table `o`, write `chan o j` for the channel it names at
  position `j`. Three facts join the two programs:
  * the matrix whose entry `(k, j)` is the 0/1 value of "position `k` equals `o j`" is `1` exactly where
    `chan o j = k`;
  * contracting a row `t` with column `j` of that matrix leaves `t (chan o j)`: on the extended reals `a * 0 = 0` and
    `a * 1 = a` for every `a`, the infinities included, so no finiteness is needed;
  * merging the two leading axes of a `[32, 4096, 512]` array into `131072` rows and splitting them again does not move
    the last coordinate, and sends `(b, l)` to row `4096 b + l`.
-/
import Idealize.ShloMosaic.PureOps.Ideal.Laws
import Idealize.ShloMosaic.Lib.ValueIdx
import Idealize.ShloMosaic.Lib.Pipeline.Value
import Idealize.ShloMosaic.Lib.StableHlo.Predicate
import proofs.«416159_j60979945668666_3_alg».proof.Proof.LibMaskSum

noncomputable section

open scoped BigOperators

namespace Cert.Channels

open Idealize.ShloMosaic Idealize.ShloMosaic.ValueIdx Idealize.ShloMosaic.StableHlo.Predicate

/-- 512 positions. -/
abbrev V512 : Shape := ⟨1, ![512]⟩
/-- A column, a row and a square of them. -/
abbrev C512 : Shape := ⟨2, ![512, 1]⟩
abbrev R512 : Shape := ⟨2, ![1, 512]⟩
abbrev M512 : Shape := ⟨2, ![512, 512]⟩
/-- The array with its three axes, and with the two leading ones merged. -/
abbrev X3 : Shape := ⟨3, ![32, 4096, 512]⟩
abbrev X2 : Shape := ⟨2, ![131072, 512]⟩

/-! ## Tables of channel numbers -/

/-- Every entry is the word of a number below 512. -/
def IsTable (o : IVec V512 32) : Prop := ∀ j : V512.Idx, ∃ k : Fin 512, o j = BitVec.ofNat 32 k.val

/-- The positions carried through a sort of 512 keys along their one axis form such a table, whatever the keys and the
    comparator: the sort reads the carried vector at a position, and the carried vector holds each position's own word. -/
theorem argsort_isTable {α : Type} (cmp : α × BitVec 32 → α × BitVec 32 → BitVec 1) (y : V512.Idx → α) :
    IsTable (Host.sort2 V512 0 cmp y (iotaInDim V512 32 0)).2 := by
  intro j
  unfold Host.sort2
  rw [dif_pos (Nat.one_pos : 0 < V512.rank)]
  exact ⟨_, rfl⟩

/-- The comparator of a stable sort by signed keys: the carried position takes no part. -/
def keyLt : BitVec 32 × BitVec 32 → BitVec 32 × BitVec 32 → BitVec 1 := fun l r => IntOp.cmpi .slt l.1 r.1

/-- The stable argsort of 512 signed keys: the positions carried through the stable sort of the keys. -/
def argsort (y : IVec V512 32) : IVec V512 32 := (Host.sort2 V512 0 keyLt y (iotaInDim V512 32 0)).2

/-- It is a table of channel numbers. -/
theorem argsort_table (y : IVec V512 32) : IsTable (argsort y) := argsort_isTable keyLt y

/-- The channel a vector of words names at position `j` (reduced into range, so that it is defined for any words). -/
def chan (o : IVec V512 32) (j : Fin 512) : Fin 512 :=
  ⟨(o (Shape.Idx.ofFin j)).toNat % 512, Nat.mod_lt _ (by decide)⟩

/-- In a table the entry at `j` is the word of its channel. -/
theorem IsTable.word {o : IVec V512 32} (h : IsTable o) (j : Fin 512) :
    o (Shape.Idx.ofFin j) = BitVec.ofNat 32 (chan o j).val := by
  obtain ⟨k, hk⟩ := h (Shape.Idx.ofFin j)
  have hk' := k.isLt
  have e : chan o j = k := Fin.ext (by
    show (o (Shape.Idx.ofFin j)).toNat % 512 = k.val
    rw [hk, BitVec.toNat_ofNat]
    omega)
  rw [e]
  exact hk

/-- Two numbers below 512 with the same 32-bit word are equal. -/
theorem ofNat_inj_512 (a b : Fin 512) (h : BitVec.ofNat 32 a.val = BitVec.ofNat 32 b.val) : a = b := by
  have := congrArg BitVec.toNat h
  simp only [BitVec.toNat_ofNat] at this
  have ha := a.isLt
  have hb := b.isLt
  exact Fin.ext (by omega)

/-! ## The one-hot matrix -/

/-- The 0/1 value of an equality test of two words, as an extended real. -/
theorem uitofp_cmpi_eq (a b : BitVec 32) :
    FloatOps.uitofp (F := Ideal) .f32 (IntOp.cmpi .eq a b) = if a = b then (1 : EReal) else 0 := by
  unfold IntOp.cmpi
  show (((BitVec.ofBool (a == b)).toNat : ℝ) : EReal) = _
  by_cases h : a = b
  · subst h; simp
  · simp [h]

/-- Entry `(k, j)` of the matrix "position `k` (down the rows) equals `o j` (along the columns)", for a table `o`: `1` where
    `o` names channel `k` at `j`, else `0`. -/
theorem onehot_apply (h1 : V512.BroadcastsInDim C512 ![0]) (h2 : V512.BroadcastsInDim R512 ![1])
    (h3 : C512.BroadcastsInDim M512 ![0, 1]) (h4 : R512.BroadcastsInDim M512 ![0, 1])
    (o : IVec V512 32) (ho : IsTable o) (k j : Fin 512) :
    uitofp (F := Ideal) .f32 (cmpi .eq
        (broadcastInDim M512 ![0, 1] h3 (broadcastInDim C512 ![0] h1 (iotaInDim V512 32 0)))
        (broadcastInDim M512 ![0, 1] h4 (broadcastInDim R512 ![1] h2 o))) (ix2 k j)
      = if chan o j = k then (1 : EReal) else 0 := by
  show FloatOps.uitofp (F := Ideal) .f32 (IntOp.cmpi .eq
      (broadcastInDim M512 ![0, 1] h3 (broadcastInDim C512 ![0] h1 (iotaInDim V512 32 0)) (ij k j))
      (broadcastInDim M512 ![0, 1] h4 (broadcastInDim R512 ![1] h2 o) (ij k j))) = _
  rw [bcast_rows h1 h3, bcast_cols h2 h4, iota_apply, ho.word j, uitofp_cmpi_eq]
  by_cases h : chan o j = k
  · rw [if_pos h, if_pos (by rw [h])]
  · rw [if_neg h, if_neg (fun e => h (ofNat_inj_512 _ _ e.symm))]

/-- A row contracted with column `j` of the one-hot matrix is the row at the channel `o` names at `j`. -/
theorem sum_mul_onehot_chan (t : Fin 512 → EReal) (o : IVec V512 32) (j : Fin 512) :
    ∑ k : Fin 512, t k * (if chan o j = k then (1 : EReal) else 0) = t (chan o j) :=
  Cert.Lib.sum_mul_onehot t (chan o j)

/-! ## Merging and splitting the two leading axes -/

/-- The row of `(b, l)` once the two leading axes are merged. -/
def row (b : Fin 32) (l : Fin 4096) : Fin 131072 := ⟨b.val * 4096 + l.val, by have := b.isLt; have := l.isLt; omega⟩

/-- The merged array at `(row b l, k)` is the array at `(b, l, k)`. -/
theorem merge_apply {α : Type} (x : X3.Idx → α) (h : X3.ShapeCasts X2) (b : Fin 32) (l : Fin 4096) (k : Fin 512) :
    shapeCast X2 x h (ix2 (row b l) k) = x (ix3 b l k) :=
  shapeCast_apply x h _ _ (by rw [Shape.rowMajor_val_two, Shape.rowMajor_val_three]; rfl)

/-- The split array at `(b, l, k)` is the merged one at `(row b l, k)`. -/
theorem split_apply {α : Type} (z : X2.Idx → α) (h : X2.ShapeCasts X3) (b : Fin 32) (l : Fin 4096) (k : Fin 512) :
    shapeCast X3 z h (ix3 b l k) = z (ix2 (row b l) k) :=
  shapeCast_apply z h _ _ (by rw [Shape.rowMajor_val_two, Shape.rowMajor_val_three]; rfl)

/-- Every row of the merged array is the row of some `(b, l)`. -/
theorem row_surj (r : Fin 131072) : ∃ (b : Fin 32) (l : Fin 4096), r = row b l :=
  ⟨⟨r.val / 4096, by have := r.isLt; omega⟩, ⟨r.val % 4096, Nat.mod_lt _ (by decide)⟩, Fin.ext (by
    show r.val = r.val / 4096 * 4096 + r.val % 4096
    omega)⟩

/-! ## The permuted array -/

/-- The channels of `x` taken in the order the table names: entry `(b, l, j)` is `x` at `(b, l, chan o j)`. -/
def permuted {α : Type} (x : X3.Idx → α) (o : IVec V512 32) : X3.Idx → α :=
  fun i => x (ix3 (n0 := 32) (n1 := 4096) (n2 := 512) (i 0) (i 1) (chan o (i 2)))

/-- At explicit coordinates. -/
theorem permuted_apply {α : Type} (x : X3.Idx → α) (o : IVec V512 32) (b : Fin 32) (l : Fin 4096) (j : Fin 512) :
    permuted x o (ix3 b l j) = x (ix3 b l (chan o j)) := rfl

/-- The same on the merged array: entry `(r, j)` is the array at `(r, chan o j)`. -/
def permuted2 {α : Type} (z : X2.Idx → α) (o : IVec V512 32) : X2.Idx → α :=
  fun i => z (ix2 (n0 := 131072) (n1 := 512) (i 0) (chan o (i 1)))

/-- At explicit coordinates. -/
theorem permuted2_apply {α : Type} (z : X2.Idx → α) (o : IVec V512 32) (r : Fin 131072) (j : Fin 512) :
    permuted2 z o (ix2 r j) = z (ix2 r (chan o j)) := rfl

/-- Merging, permuting the columns and splitting again is permuting the channels. -/
theorem split_permuted2_merge {α : Type} (x : X3.Idx → α) (o : IVec V512 32) (h : X3.ShapeCasts X2) (h' : X2.ShapeCasts X3) :
    shapeCast X3 (permuted2 (shapeCast X2 x h) o) h' = permuted x o := by
  funext i
  obtain ⟨b, l, j, rfl⟩ : ∃ (b : Fin 32) (l : Fin 4096) (j : Fin 512), i = ix3 b l j := ⟨i 0, i 1, i 2, eq_ix3 i⟩
  rw [split_apply, permuted2_apply, merge_apply, permuted_apply]

end Cert.Channels

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.KernelValue.lean ====
/-
  What the kernel's program computes, read off its frame run.

  Before the region the host builds, from the stable argsort `o` of the cluster ids, the 512 × 512 matrix whose entry
  `(k, j)` is `1` where `o` names channel `k` at position `j` and `0` elsewhere, and merges the two leading axes of the
  array into 131072 rows. The region walks the merged array in 64 blocks of 2048 rows; at each block the body multiplies
  the block by the whole matrix into a zero accumulator, so entry `(p, q)` of what it writes back is
  `∑ k, block (p, k) * [chan o q = k]`, the block at `(p, chan o q)`. The blocks tile the rows, so the region leaves the
  merged array with its columns permuted, and the reshape after the region splits the rows again: the program's result
  is the array with its channels in the order `o` names.
-/
import proofs.«416159_j60979945668666_3_alg».proof.Proof.Gen.KernelIdeal.Frame
import proofs.«416159_j60979945668666_3_alg».proof.Proof.Channels
import proofs.«416159_j60979945668666_3_alg».proof.Proof.LibPlainDot
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Cert.Channels
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The cluster ids and the array as launched. -/
abbrev ids (c : Dev nD) : IVec S512 32 := m ((c : Thread nD τ).loc main_arg1)
abbrev arr (c : Dev nD) : FVec Ideal S32x4096x512 .f32 := m ((c : Thread nD τ).loc main_arg0)

/-! ## The body's product at an element -/

/-- Entry `(p, q)` of the body's product of a 2048-row block with the matrix. -/
theorem pay_apply (x1 : Vec Ideal S2048x512 .f32) (x0 : Vec Ideal S512x512 .f32) (p : Fin 2048) (q : Fin 512) :
    k0_pay1 x1 x0 (ix2 p q) = ∑ k : Fin 512, x1 (ix2 p k) * x0 (ix2 k q) := by
  unfold k0_pay1
  simp only [shapeCast_self]
  exact Cert.Lib.PlainDot.matmul_zero_apply (d := dot_S2048x512_S512x512_S2048x512_1_0_0_1_n_n)
    ⟨rfl, rfl, rfl, rfl, rfl, rfl⟩ none x1 x0 p q

/-! ## What the region finds -/

attribute [local irreducible] Host.sort2 in
/-- The matrix the host hands the region: "position `k` equals the argsort's entry `j`", as 0/1 values. -/
theorem V_matrix (c : Dev nD) :
    (V m c main_v7 : FVec Ideal S512x512 .f32)
      = uitofp (F := Ideal) .f32 (cmpi .eq
          (broadcastInDim S512x512 ![0, 1] bcast_S512x1_S512x512_0_1
            (broadcastInDim S512x1 ![0] bcast_S512_S512x1_0 (iotaInDim S512 32 0)))
          (broadcastInDim S512x512 ![0, 1] bcast_S1x512_S512x512_0_1
            (broadcastInDim S1x512 ![1] bcast_S512_S1x512_1
              (Host.sort2 S512 0 comparator_i32_i32_d0 (ids m c) (iotaInDim S512 32 0)).2))) := by
  dsimp only [V, V0]
  simp only [hostOps0, hostOps0_1, List.flatten_cons, List.flatten_nil, List.append_nil, List.cons_append,
    List.nil_append]
  after_results
  rfl

/-- Its entry `(k, j)`: `1` where the argsort names channel `k` at `j`. -/
theorem V_matrix_apply (c : Dev nD) (k j : Fin 512) :
    (V m c main_v7 : FVec Ideal S512x512 .f32) (ix2 k j) = if chan (argsort (ids m c)) j = k then (1 : EReal) else 0 := by
  rw [V_matrix]
  exact onehot_apply _ _ _ _ (argsort (ids m c)) (argsort_table _) k j

attribute [local irreducible] Host.sort2 in
/-- The array the region walks: the launched array with its two leading axes merged. -/
theorem V_merged (c : Dev nD) :
    (V m c main_v8 : FVec Ideal S131072x512 .f32)
      = shapeCast S131072x512 (arr m c) shapeCasts_S32x4096x512_S131072x512 := by
  dsimp only [V, V0]
  simp only [hostOps0, hostOps0_1, List.flatten_cons, List.flatten_nil, List.append_nil, List.cons_append,
    List.nil_append]
  after_results
  rfl

/-! ## The windows' blocks -/

/-- The printed index maps over the grid: the matrix's window stays at block `(0, 0)`, the two row windows sit at
    block `(t, 0)`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 64 := lt_of_lt_of_eq t.isLt N_0

/-- The row of the merged array that row `p` of block `t` is. -/
def rowOf (t : Fin cfg0.N) (p : Fin 2048) : Fin 131072 :=
  ⟨t.val * 2048 + p.val, by have := t_lt t; have := p.isLt; omega⟩

/-- The matrix's block at any point is the whole matrix. -/
theorem iblk0_apply (c : Dev nD) (t : Fin cfg0.N) (k j : Fin 512) :
    (iblk m c 0 t : Vec Ideal S512x512 .f32) (ix2 k j) = (V m c main_v7 : FVec Ideal S512x512 .f32) (ix2 k j) := by
  obtain ⟨e0, e1, -⟩ := idx_facts t
  unfold iblk
  rw [View.read_apply]
  show V m c main_v7 _ = V m c main_v7 _
  congr 1
  funext a
  apply Fin.ext
  match a with
  | ⟨0, _⟩ => show win0_0.index t (0 : Fin 2) * 512 + 1 * k.val = k.val; rw [e0]; omega
  | ⟨1, _⟩ => show win0_0.index t (1 : Fin 2) * 512 + 1 * j.val = j.val; rw [e1]; omega

/-- The row window's block at point `t`: rows `2048 t … 2048 t + 2047` of the merged array. -/
theorem iblk1_apply (c : Dev nD) (t : Fin cfg0.N) (p : Fin 2048) (k : Fin 512) :
    (iblk m c 1 t : Vec Ideal S2048x512 .f32) (ix2 p k)
      = (V m c main_v8 : FVec Ideal S131072x512 .f32) (ix2 (rowOf t p) k) := by
  obtain ⟨-, -, e2, e3, -⟩ := idx_facts t
  unfold iblk
  rw [View.read_apply]
  show V m c main_v8 _ = V m c main_v8 _
  congr 1
  funext a
  apply Fin.ext
  match a with
  | ⟨0, _⟩ => show win0_1.index t (0 : Fin 2) * 2048 + 1 * p.val = t.val * 2048 + p.val; rw [e2]; omega
  | ⟨1, _⟩ => show win0_1.index t (1 : Fin 2) * 512 + 1 * k.val = k.val; rw [e3]; omega

/-! ## What a point writes back -/

theorem hz : (![0, 0] : Fin 2 → Nat) = fun _ => 0 := funext fun a => by fin_cases a <;> rfl

/-- WHAT POINT `t` WRITES BACK is block `t` of the merged array with its columns permuted. -/
theorem flushed_eq (c : Dev nD) (t : Fin cfg0.N) :
    (dats m 0 c).flushed 2 t
      = ((cfg0.win 2).blk t).view.read (Elt Ideal) (permuted2 (V m c main_v8 : FVec Ideal S131072x512 .f32) (argsort (ids m c))) := by
  show (cfg0.win 2).cut (grid0.coords t) ((dats m 0 c).after 2 t) = _
  rw [after0_2]
  unfold out0_2
  rw [View.canon_unit_zero hz]
  simp only [View.ld_unit_zero (S := S2048x512) hz, View.ld_unit_zero (S := S512x512) hz]
  obtain ⟨-, -, -, -, e4, e5⟩ := idx_facts t
  funext y
  obtain ⟨p, q, rfl⟩ : ∃ (p : Fin 2048) (q : Fin 512), y = ix2 p q := ⟨y 0, y 1, eq_ix2 y⟩
  have hemb : ((cfg0.win 2).blk t).view.emb (ix2 p q) = ix2 (n0 := 131072) (n1 := 512) (rowOf t p) q := by
    funext a
    apply Fin.ext
    match a with
    | ⟨0, _⟩ => show win0_2.index t (0 : Fin 2) * 2048 + 1 * p.val = t.val * 2048 + p.val; rw [e4]; omega
    | ⟨1, _⟩ => show win0_2.index t (1 : Fin 2) * 512 + 1 * q.val = q.val; rw [e5]; omega
  show k0_pay1 (iblk m c 1 t) (iblk m c 0 t) (ix2 p q)
    = permuted2 (V m c main_v8 : FVec Ideal S131072x512 .f32) (argsort (ids m c)) (((cfg0.win 2).blk t).view.emb (ix2 p q))
  rw [hemb, permuted2_apply]
  refine (pay_apply (iblk m c 1 t) (iblk m c 0 t) p q).trans ?_
  rw [Finset.sum_congr rfl (fun k _ => by rw [iblk1_apply m c t p k, iblk0_apply m c t k q, V_matrix_apply m c k q])]
  exact sum_mul_onehot_chan (fun k => (V m c main_v8 : FVec Ideal S131072x512 .f32) (ix2 (rowOf t p) k)) (argsort (ids m c)) q

/-! ## The blocks tile the rows -/

/-- An index of the merged array is in point `t`'s block iff each coordinate is in the block's range on its axis. -/
theorem mem_blk (t : Fin cfg0.N) (i : S131072x512.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v9).slice (win0_2.rect t)).set ↔ _
  rw [View.set_slice_whole, Rect.mem_set_unit]
  exact Iff.rfl

/-- Row `r` lies in the block of point `r / 2048`. -/
theorem cover (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  have hN : cfg0.N = 64 := N_0
  refine ⟨⟨(i 0).val / 2048, by rw [hN]; omega⟩, flush0_2 _, ?_⟩
  obtain ⟨-, -, -, -, e4, e5⟩ := idx_facts ⟨(i 0).val / 2048, by rw [hN]; omega⟩
  rw [mem_blk]
  intro a
  match a with
  | ⟨0, _⟩ =>
    show win0_2.index _ (0 : Fin 2) * 2048 ≤ (i 0).val ∧ (i 0).val < win0_2.index _ (0 : Fin 2) * 2048 + 2048
    rw [e4]
    show (i 0).val / 2048 * 2048 ≤ (i 0).val ∧ (i 0).val < (i 0).val / 2048 * 2048 + 2048
    omega
  | ⟨1, _⟩ =>
    show win0_2.index _ (1 : Fin 2) * 512 ≤ (i 1).val ∧ (i 1).val < win0_2.index _ (1 : Fin 2) * 512 + 512
    rw [e5]
    omega

/-- THE REGION'S RESULT: the merged array with its columns permuted. -/
theorem final (c : Dev nD) :
    (dats m 0 c).arrAt 2 cfg0.N = permuted2 (V m c main_v8 : FVec Ideal S131072x512 .f32) (argsort (ids m c)) :=
  (dats m 0 c).arrAt_eq_of_cover 2 _ (fun t _ => flushed_eq m c t) cover

/-! ## The reshape after the region, and the run -/

/-- THE PROGRAM'S RESULT: the array with its channels in the argsort's order. -/
theorem tail_eq (c : Dev nD) :
    Pipeline.afterTail₀ cfgs (dats m) 0 (V0 m) [hostOps1] c main_v10 = permuted (arr m c) (argsort (ids m c)) := by
  unfold Pipeline.afterTail₀
  show StableHlo.after hostOps1 _ (Proc.devRef .tc main_v10) = _
  after_results
  show shapeCast S32x4096x512 (Pipeline.withArrays spec0 c (V0 m c) (fun w => (dats m 0 c).arrAt w cfg0.N)
      (Proc.devRef .tc (Pipeline.arrRef spec0 2))) shapeCasts_S131072x512_S32x4096x512 = _
  rw [Pipeline.withArrays_arr spec0 launch0.win.arr_inj c _ _ 2, final, V_merged]
  exact split_permuted2_merge _ _ _ _

/-- From any memory with zero counters, every weakly fair execution of the kernel's program terminates with its result
    at the array's channels in the argsort's order, and the arguments as they were. -/
theorem run : θ_run defs (onTc (τ := τ) (main (F := Ideal))) ⟨m, fun _ => 0, ρ⟩ fun r => ∀ c : Dev nD,
      r.2.mem ((c.tc : Thread nD τ).loc main_v10) = permuted (arr m c) (argsort (ids m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.RefRun.lean ====
/-
  The reference program as one line of host operations, and what its run leaves.

  The reference sorts the 512 cluster ids stably, carrying the positions `0 … 511` along (three operations), and then
  takes the channels of `x` in that order along the last axis (twenty-three operations: the order is wrapped where it is
  negative, tested against `[0, 511]`, the channels gathered at the clamped order, and the result kept where the test
  passed, a not-a-number fill elsewhere). Listed in program order these twenty-six operations are the whole program, so
  every weakly fair execution ends with the result buffer at their composition `taken x y` of the two arguments and with
  the arguments unchanged.
-/
import proofs.«416159_j60979945668666_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The stable argsort of the cluster ids: the positions `0 … 511` carried through the stable sort of the ids. -/
def order (y : IVec S512 32) : IVec S512 32 :=
  (Host.sort2 S512 0 comparator_i32_i32_d0 y (iotaInDim S512 32 0)).2

/-- The order with a negative entry wrapped by `512`, as a column. -/
def wrapped (o : IVec S512 32) : IVec S512x1 32 :=
  broadcastInDim S512x1 ![0] bcast_S512_S512x1_0
    (select (cmpi .slt o (broadcastInDim S512 ![] bcast_S_S512 (constantI S_ 32 0#32)))
      (addi o (broadcastInDim S512 ![] bcast_S_S512 (constantI S_ 32 512#32))) o)

/-- Which entries of the wrapped order lie in `[0, 511]`. -/
def inRange (w : IVec S512x1 32) : IVec S512 1 :=
  Host.reduce IntOp.andi
    (andi (cmpi .sge w (broadcastInDim S512x1 ![] bcast_S_S512x1 (constantI S_ 32 0#32)))
      (cmpi .sle w (broadcastInDim S512x1 ![0, 1] bcast_S1x1_S512x1_0_1
        (broadcastInDim S1x1 ![1] bcast_S1_S1x1_1 (constantI S1 32 511#32)))))
    (constantI S_ 1 1#1) reducesTo_S512x1_S512_d1 h_S_

/-- The channels of `x` taken at the order `o` along the last axis: gathered at the wrapped, clamped order where it is in
    range, the fill elsewhere. -/
def takenAt (x : FVec F S32x4096x512 .f32) (o : IVec S512 32) : FVec F S32x4096x512 .f32 :=
  select (broadcastInDim S32x4096x512 ![2] bcast_S512_S32x4096x512_2 (inRange (wrapped o)))
    (Host.gather gather_S32x4096x512_S512x1_S32x4096x512_01_2_n_n_2_1_3240961 x (wrapped o))
    (broadcastInDim S32x4096x512 ![] bcast_S_S32x4096x512 (constant S_ .f32 0x7FC00000#32))

/-- The reference's result as one function of its two arguments. -/
def taken (x : FVec F S32x4096x512 .f32) (y : IVec S512 32) : FVec F S32x4096x512 .f32 := takenAt x (order y)

/-- The program's twenty-six operations, in order: the sort's three over its call's buffers, then the take's. -/
abbrev ops : List (HloOp τ sig (Elt F)) :=
  [ TRef.nullary main_call0.v0 (iotaInDim S512 32 0),
    TRef.binary (.of main_arg1 : TRef sig ⟨S512, .i32⟩) main_call0.v0 main_call0.v1_0 (fun x y => (Host.sort2 S512 0 comparator_i32_i32_d0 x y).1),
    TRef.binary (.of main_arg1 : TRef sig ⟨S512, .i32⟩) main_call0.v0 main_call0.v1_1 (fun x y => (Host.sort2 S512 0 comparator_i32_i32_d0 x y).2),
    TRef.nullary main_call1.c (constantI S_ 32 0#32),
    TRef.unary main_call1.c main_call1.v0 (broadcastInDim S512 ![] bcast_S_S512),
    TRef.binary (.of main_v0 : TRef sig ⟨S512, .i32⟩) main_call1.v0 main_call1.v1 (cmpi .slt),
    TRef.nullary main_call1.c_0 (constantI S_ 32 512#32),
    TRef.unary main_call1.c_0 main_call1.v2 (broadcastInDim S512 ![] bcast_S_S512),
    TRef.binary (.of main_v0 : TRef sig ⟨S512, .i32⟩) main_call1.v2 main_call1.v3 addi,
    TRef.ternary main_call1.v1 main_call1.v3 (.of main_v0 : TRef sig ⟨S512, .i32⟩) main_call1.call0.v0 select,
    TRef.unary main_call1.call0.v0 main_call1.v5 (broadcastInDim S512x1 ![0] bcast_S512_S512x1_0),
    TRef.nullary main_call1.c_1 (constantI S1 32 511#32),
    TRef.nullary main_call1.c_2 (constantI S_ 32 0#32),
    TRef.unary main_call1.c_2 main_call1.v6 (broadcastInDim S512x1 ![] bcast_S_S512x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S512x1 ![0, 1] bcast_S1x1_S512x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S512x1_S512_d1 h_S_),
    TRef.binary (.of main_arg0 : TRef sig ⟨S32x4096x512, .f32⟩) main_call1.v5 main_call1.v13 (fun x i => Host.gather gather_S32x4096x512_S512x1_S32x4096x512_01_2_n_n_2_1_3240961 x i),
    TRef.unary main_call1.v12 main_call1.v14 (broadcastInDim S32x4096x512 ![2] bcast_S512_S32x4096x512_2),
    TRef.nullary main_call1.cst (constant S_ .f32 0x7FC00000#32),
    TRef.unary main_call1.cst main_call1.v15 (broadcastInDim S32x4096x512 ![] bcast_S_S32x4096x512),
    TRef.ternary main_call1.v14 main_call1.v13 main_call1.v15 main_call1.v16 select ]

set_option maxRecDepth 1024 in
/-- The program is that line: the two functions' bodies opened at their calls, sequencing reassociated. -/
theorem main_eq (c : Dev nD) : main (F := F) c = seq ops := by
  simp only [main, fn_argsort.body, fn_take.body, fn_where.body, seq, bind_assoc, pure_bind]

attribute [local irreducible] Host.sort2 Host.gather Host.reduce in
set_option maxRecDepth 8192 in
/-- The line's composition at the result buffer is `taken` of the two arguments' contents. -/
theorem out_eq (V : Valuation τ sig (Elt F)) :
    after ops V (main_v1 : DevRef τ sig) = taken (V (main_arg0 : DevRef τ sig)) (V (main_arg1 : DevRef τ sig)) := by
  unfold taken takenAt inRange wrapped order
  after_results_simp
  rfl

attribute [local irreducible] Host.sort2 Host.gather Host.reduce in
theorem arg0_eq (V : Valuation τ sig (Elt F)) : after ops V (main_arg0 : DevRef τ sig) = V (main_arg0 : DevRef τ sig) := by
  after_results

attribute [local irreducible] Host.sort2 Host.gather Host.reduce in
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub ..⟩

/-- From any memory with zero counters, every weakly fair execution of the reference terminates with its result at
    `taken` of the two arguments and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = taken (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  What the reference's take computes, index by index.

  For a table `o` of channel numbers (every entry the word of a number below 512) the reference's take reads, at
  `(b, l, j)`, the array at `(b, l, chan o j)`: no entry is negative, so the wrap by 512 leaves the table as it is; every
  entry passes the test against `[0, 511]`, so the fill is never chosen; and the gather along the last axis reads the
  array at the entry, which the clamp into `[0, 511]` does not move. The argsort of the cluster ids is such a table.
-/
import proofs.«416159_j60979945668666_3_alg».proof.Proof.RefRun
import proofs.«416159_j60979945668666_3_alg».proof.Proof.Channels

noncomputable section

namespace Cert.ReferenceIdeal.RefValue

open Cert.ReferenceIdeal Cert.ReferenceIdeal.Gen Cert.ReferenceIdeal.RefRun Cert.Channels
open Idealize.ShloMosaic Idealize.ShloMosaic.ValueIdx Idealize.ShloMosaic.StableHlo.Predicate

/-! ## Small words -/

/-- The word of a number below 512 has that number as its value. -/
theorem toNat_ofNat_512 (c : Fin 512) : (BitVec.ofNat 32 c.val).toNat = c.val := by
  have := c.isLt
  simp only [BitVec.toNat_ofNat]
  omega

/-- An index of a 512-entry column is its row. -/
theorem eq_ixP (i : S512x1.Idx) : i = ixP (i 0) := by
  funext a
  match a with
  | ⟨0, _⟩ => rfl
  | ⟨1, h⟩ =>
    refine Fin.ext ?_
    have h1 : (i ⟨1, h⟩).val < 1 := (i ⟨1, h⟩).isLt
    show (i ⟨1, h⟩).val = 0
    omega

/-! ## The wrapped order and the range test -/

/-- The wrap leaves a table as it is: row `j` of the wrapped column is the word of the channel at `j`. -/
theorem wrapped_apply (o : IVec S512 32) (ho : IsTable o) (j : Fin 512) :
    wrapped o (ixP j) = BitVec.ofNat 32 (chan o j).val := by
  unfold wrapped
  rw [bcast_col1]
  show Scalar.select (IntOp.cmpi .slt (o (Shape.Idx.ofFin j)) 0#32) (IntOp.addi (o (Shape.Idx.ofFin j)) 512#32)
      (o (Shape.Idx.ofFin j)) = _
  rw [ho.word j]
  unfold Scalar.select
  rw [if_neg]
  intro h
  have h' := (slt_iff_toNat (by rw [toNat_ofNat_512]; have := (chan o j).isLt; omega) (by decide)).mp h
  exact absurd h' (Nat.not_lt_zero _)

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- Every entry of a table's wrapped column passes the test against `[0, 511]`. -/
theorem inRange_one (o : IVec S512 32) (ho : IsTable o) (j : S512.Idx) : inRange (wrapped o) j = 1#1 := by
  unfold inRange Host.reduce
  refine foldl_andi_ones _ (fun n => ?_) _
  generalize S512x1.rowMajor.symm n = i
  obtain ⟨p, rfl⟩ : ∃ p : Fin 512, i = ixP p := ⟨i 0, eq_ixP i⟩
  show IntOp.andi (IntOp.cmpi .sge (wrapped o (ixP p)) 0#32) (IntOp.cmpi .sle (wrapped o (ixP p)) 511#32) = 1#1
  rw [wrapped_apply o ho]
  have hc := (chan o p).isLt
  have h1 : IntOp.cmpi .sge (BitVec.ofNat 32 (chan o p).val) 0#32 = 1#1 :=
    (sge_iff_toNat (by rw [toNat_ofNat_512]; omega) (by decide)).mpr (Nat.zero_le _)
  have h2 : IntOp.cmpi .sle (BitVec.ofNat 32 (chan o p).val) 511#32 = 1#1 :=
    (sle_iff_toNat (by rw [toNat_ofNat_512]; omega) (by decide)).mpr (by
      rw [toNat_ofNat_512]; show (chan o p).val ≤ 511; omega)
  rw [h1, h2]
  rfl

/-! ## The gather along the last axis -/

/-- The take's dimension numbers: the two leading axes kept whole, the last collapsed and start-indexed. -/
abbrev lastAxis := gather_S32x4096x512_S512x1_S32x4096x512_01_2_n_n_2_1_3240961

/-- The gather at `(b, l, j)`: the array at `(b, l, ·)` and, on the last axis, at the start index of `j` read signed and
    clamped into `[0, 511]`. -/
theorem gather_apply {α : Type} (x : S32x4096x512.Idx → α) (idx : IVec S512x1 32) (b : Fin 32) (l : Fin 4096) (j : Fin 512) :
    Host.gather lastAxis x idx (ix3 b l j) = x (ix3 b l ⟨min (idx (ixP j)).toInt.toNat 511, by omega⟩) := by
  unfold Host.gather
  congr 1
  funext a
  refine Fin.ext ?_
  match a with
  | ⟨0, _⟩ =>
    show lastAxis.start (ix3 b l j) idx 0 + lastAxis.batchCoord (ix3 b l j) 0 + lastAxis.offCoord (ix3 b l j) 0 = b.val
    rw [GatherDims.batchCoord_eq_zero _ _ _ List.not_mem_nil]
    unfold GatherDims.start GatherDims.offCoord
    rw [dif_neg (by decide), dif_pos (by decide), Nat.zero_add]
    rfl
  | ⟨1, _⟩ =>
    show lastAxis.start (ix3 b l j) idx 1 + lastAxis.batchCoord (ix3 b l j) 1 + lastAxis.offCoord (ix3 b l j) 1 = l.val
    rw [GatherDims.batchCoord_eq_zero _ _ _ List.not_mem_nil]
    unfold GatherDims.start GatherDims.offCoord
    rw [dif_neg (by decide), dif_pos (by decide), Nat.zero_add]
    rfl
  | ⟨2, _⟩ =>
    show lastAxis.start (ix3 b l j) idx 2 + lastAxis.batchCoord (ix3 b l j) 2 + lastAxis.offCoord (ix3 b l j) 2
      = min (idx (ixP j)).toInt.toNat 511
    rw [GatherDims.batchCoord_eq_zero _ _ _ List.not_mem_nil, GatherDims.offCoord_eq_zero _ _ _ (by decide)]
    unfold GatherDims.start
    rw [dif_pos (by decide)]
    have hsi : lastAxis.siIdx (ix3 b l j) ⟨List.idxOf (2 : Fin 3) lastAxis.startIndexMap,
        List.idxOf_lt_length_iff.2 (by decide)⟩ = ixP j := by
      funext b'; refine Fin.ext ?_
      match b' with
      | ⟨0, _⟩ => rfl
      | ⟨1, _⟩ => rfl
    rw [hsi]
    rfl

/-! ## The take -/

/-- A vector laid along the last axis reads, at `(b, l, j)`, its entry `j`. -/
theorem bcast_last {α : Type} (v : S512.Idx → α) (b : Fin 32) (l : Fin 4096) (j : Fin 512) :
    broadcastInDim S32x4096x512 ![2] bcast_S512_S32x4096x512_2 v (ix3 b l j) = v (Shape.Idx.ofFin j) :=
  broadcastInDim_apply ![2] bcast_S512_S32x4096x512_2 v (ix3 b l j) (Shape.Idx.ofFin j) (fun a => by
    obtain rfl : a = 0 := Subsingleton.elim _ _
    rfl)

/-- THE TAKE at a table: the channels of `x` in the order the table names. -/
theorem takenAt_eq {F : FTy → Type} [FloatOps F] (x : FVec F S32x4096x512 .f32) (o : IVec S512 32) (ho : IsTable o) :
    takenAt x o = permuted x o := by
  funext i
  obtain ⟨b, l, j, rfl⟩ : ∃ (b : Fin 32) (l : Fin 4096) (j : Fin 512), i = ix3 b l j := ⟨i 0, i 1, i 2, eq_ix3 i⟩
  rw [permuted_apply]
  show Scalar.select
      (broadcastInDim S32x4096x512 ![2] bcast_S512_S32x4096x512_2 (inRange (wrapped o)) (ix3 b l j))
      (Host.gather lastAxis x (wrapped o) (ix3 b l j))
      (broadcastInDim S32x4096x512 ![] bcast_S_S32x4096x512 (constant S_ .f32 0x7FC00000#32) (ix3 b l j))
    = x (ix3 b l (chan o j))
  rw [bcast_last, inRange_one o ho, gather_apply]
  unfold Scalar.select
  rw [if_pos (show (1#1 : BitVec 1) = 1 from rfl)]
  refine congrArg x (congrArg (ix3 b l) (Fin.ext ?_))
  show min (wrapped o (ixP j)).toInt.toNat 511 = (chan o j).val
  have hc := (chan o j).isLt
  rw [wrapped_apply o ho, toInt_ofNat_small _ (by omega), Int.toNat_natCast]
  omega

/-- The reference's order is the stable argsort of the cluster ids. -/
theorem order_eq (y : IVec S512 32) : order y = argsort y := rfl

/-- THE REFERENCE'S RESULT: the channels of `x` in the order of the stable argsort of the cluster ids. -/
theorem taken_eq {F : FTy → Type} [FloatOps F] (x : FVec F S32x4096x512 .f32) (y : IVec S512 32) :
    taken x y = permuted x (argsort y) := by
  unfold taken
  rw [order_eq]
  exact takenAt_eq x (argsort y) (argsort_table y)

end Cert.ReferenceIdeal.RefValue

end
-- ==== Proof.lean ====
/-
  A channel permutation done two ways, equal over the extended reals.

  Both programs sort the 512 cluster ids stably, carrying the positions `0 … 511` along; the carried positions `o` are a
  table of channel numbers. The reference takes the channels of `x : [32, 4096, 512]` in that order with a gather along
  the last axis. The kernel's program instead builds the 512 × 512 matrix with a `1` at `(o j, j)` and `0` elsewhere,
  merges the two leading axes of `x`, multiplies the 131072 rows by the matrix in 64 blocks of 2048 rows, and splits the
  rows again. On the extended reals `a * 0 = 0` and `a * 1 = a` for every `a`, so the product's entry `(r, j)` is
  the merged array at `(r, o j)`; no finiteness of `x` is used. Both results are the one function
  `permuted x (argsort y)`: entry `(b, l, j)` is `x` at `(b, l, chan (argsort y) j)`.

  The two frames of the kernel's program are its generated frame runs; the reference's frame is its run with the result
  dropped; the idealization rewrote nothing, so there is nothing to preserve.
-/
import proofs.«416159_j60979945668666_3_alg».proof.Defs
import proofs.«416159_j60979945668666_3_alg».proof.Proof.Gen.Kernel
import proofs.«416159_j60979945668666_3_alg».proof.Proof.Gen.Kernel.Frame
import proofs.«416159_j60979945668666_3_alg».proof.Proof.Gen.KernelIdeal
import proofs.«416159_j60979945668666_3_alg».proof.Proof.Gen.KernelIdeal.Frame
import proofs.«416159_j60979945668666_3_alg».proof.Proof.Gen.ReferenceIdeal
import proofs.«416159_j60979945668666_3_alg».proof.Proof.Gen.Pre_finite_inputs
import proofs.«416159_j60979945668666_3_alg».proof.Proof.KernelValue
import proofs.«416159_j60979945668666_3_alg».proof.Proof.RefValue

noncomputable section

namespace Cert.Proof

open Idealize.ShloMosaic Idealize.SL.Sem

/-- The kernel's program, as printed, runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the array's channels in the order of the stable
    argsort of the cluster ids. -/
theorem algebraic : Cert.algebraic_KernelIdeal_ReferenceIdeal := by
  intro m ρ m' ρ' _ hagree
  refine ⟨fun c => Cert.Channels.permuted (Cert.KernelIdeal.KValue.arr m c)
      (Cert.Channels.argsort (Cert.KernelIdeal.KValue.ids m c)), Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.taken_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
